-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x65544 : Shape := ⟨3, ![32, 16, 65544]⟩
abbrev S32x8 : Shape := ⟨2, ![32, 8]⟩
abbrev S8x16 : Shape := ⟨2, ![8, 16]⟩
abbrev S16 : Shape := ⟨1, ![16]⟩
abbrev S16x768 : Shape := ⟨2, ![16, 768]⟩
abbrev S768 : Shape := ⟨1, ![768]⟩
abbrev S_ : Shape := ⟨0, ![]⟩

class Facts : Prop where
  bcast_S_S32x16x65544 : S_.BroadcastsInDim S32x16x65544 (![] : Fin 0 → Fin S32x16x65544.rank)
  reducesTo_S32x16x65544_S_d0_1_2 : S32x16x65544.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x768 : S_.BroadcastsInDim S16x768 (![] : Fin 0 → Fin S16x768.rank)
  reducesTo_S16x768_S_d0_1 : S16x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S16x768 .f32) (main_arg5 : FVec F S768 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x768 .f32 := Host.absf main_arg4
  let main_cst_6 : FVec F S_ .f32 := constant S_ .f32 0x7F800000#32
  let main_v20 : FVec F S16x768 .f32 := broadcastInDim S16x768 ![] bcast_S_S16x768 main_cst_6
  let main_v21 : IVec S16x768 1 := cmpf .olt main_v19 main_v20
  let main_c_7 : IVec S_ 1 := constantI S_ 1 1#1
  let main_v22 : IVec S_ 1 := (fun x v => Host.reduce IntOp.andi x v reducesTo_S16x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S32x16x65544 .f32) (main_arg1 : FVec F S32x8 .f32) (main_arg2 : FVec F S8x16 .f32) (main_arg3 : FVec F S16 .f32) (main_arg4 : FVec F S16x768 .f32) (main_arg5 : FVec F S768 .f32) : IVec S_ 1 :=
  let main_v0 : FVec F S32x16x65544 .f32 := Host.absf main_arg0
  let main_cst : FVec F S_ .f32 := constant S_ .f32 0x7F800000#32
  let main_v1 : FVec F S32x16x65544 .f32 := broadcastInDim S32x16x65544 ![] bcast_S_S32x16x65544 main_cst
  let main_v2 : IVec S32x16x65544 1 := cmpf .olt main_v0 main_v1
  let main_c : IVec S_ 1 := constantI S_ 1 1#1
  let main_v3 : IVec S_ 1 := (fun x v => Host.reduce IntOp.andi x v reducesTo_S32x16x65544_S_d0_1_2 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S8x16 .f32 := Host.absf main_arg2
  let main_cst_2 : FVec F S_ .f32 := constant S_ .f32 0x7F800000#32
  let main_v10 : FVec F S8x16 .f32 := broadcastInDim S8x16 ![] bcast_S_S8x16 main_cst_2
  let main_v11 : IVec S8x16 1 := cmpf .olt main_v9 main_v10
  let main_c_3 : IVec S_ 1 := constantI S_ 1 1#1
  let main_v12 : IVec S_ 1 := (fun x v => Host.reduce IntOp.andi x v reducesTo_S8x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S32x16x65544 : Shape := ⟨3, ![32, 16, 65544]⟩
abbrev S32x8 : Shape := ⟨2, ![32, 8]⟩
abbrev S8x16 : Shape := ⟨2, ![8, 16]⟩
abbrev S16 : Shape := ⟨1, ![16]⟩
abbrev S16x768 : Shape := ⟨2, ![16, 768]⟩
abbrev S768 : Shape := ⟨1, ![768]⟩
abbrev S32x16 : Shape := ⟨2, ![32, 16]⟩
abbrev S1x16 : Shape := ⟨2, ![1, 16]⟩
abbrev S_ : Shape := ⟨0, ![]⟩
abbrev S32x768 : Shape := ⟨2, ![32, 768]⟩
abbrev S1x768 : Shape := ⟨2, ![1, 768]⟩
abbrev S32x48x16 : Shape := ⟨3, ![32, 48, 16]⟩
abbrev S32x16x48 : Shape := ⟨3, ![32, 16, 48]⟩
abbrev S32x16x65536 : Shape := ⟨3, ![32, 16, 65536]⟩
abbrev S1x16x65544 : Shape := ⟨3, ![1, 16, 65544]⟩
abbrev S1x16x48 : Shape := ⟨3, ![1, 16, 48]⟩
abbrev S1x16x65536 : Shape := ⟨3, ![1, 16, 65536]⟩
abbrev S16x65544 : Shape := ⟨2, ![16, 65544]⟩
abbrev S16x65536 : Shape := ⟨2, ![16, 65536]⟩
abbrev S48x65536 : Shape := ⟨2, ![48, 65536]⟩
abbrev S16x48 : Shape := ⟨2, ![16, 48]⟩

abbrev nBuf : Space → Nat
  | .hbm => 24
  | .vmem => 6
  | .smem => 0
  | _ => 0

abbrev bufTy : (tb : Table) → Fin (tcTables nBuf tb) → BufTy
  | .hbm, ⟨0, _⟩ => ⟨S32x16x65544, .f32⟩
  | .hbm, ⟨1, _⟩ => ⟨S32x8, .f32⟩
  | .hbm, ⟨2, _⟩ => ⟨S8x16, .f32⟩
  | .hbm, ⟨3, _⟩ => ⟨S16, .f32⟩
  | .hbm, ⟨4, _⟩ => ⟨S16x768, .f32⟩
  | .hbm, ⟨5, _⟩ => ⟨S768, .f32⟩
  | .hbm, ⟨6, _⟩ => ⟨S32x16, .f32⟩
  | .hbm, ⟨7, _⟩ => ⟨S1x16, .f32⟩
  | .hbm, ⟨8, _⟩ => ⟨S32x16, .f32⟩
  | .hbm, ⟨9, _⟩ => ⟨S32x16, .f32⟩
  | .hbm, ⟨10, _⟩ => ⟨S_, .f32⟩
  | .hbm, ⟨11, _⟩ => ⟨S32x16, .f32⟩
  | .hbm, ⟨12, _⟩ => ⟨S32x16, .i1⟩
  | .hbm, ⟨13, _⟩ => ⟨S_, .f32⟩
  | .hbm, ⟨14, _⟩ => ⟨S32x16, .f32⟩
  | .hbm, ⟨15, _⟩ => ⟨S32x16, .f32⟩
  | .hbm, ⟨16, _⟩ => ⟨S32x16, .f32⟩
  | .hbm, ⟨17, _⟩ => ⟨S32x768, .f32⟩
  | .hbm, ⟨18, _⟩ => ⟨S1x768, .f32⟩
  | .hbm, ⟨19, _⟩ => ⟨S32x768, .f32⟩
  | .hbm, ⟨20, _⟩ => ⟨S32x768, .f32⟩
  | .hbm, ⟨21, _⟩ => ⟨S32x48x16, .f32⟩
  | .hbm, ⟨22, _⟩ => ⟨S32x16x48, .f32⟩
  | .hbm, ⟨23, _⟩ => ⟨S32x16x65536, .f32⟩
  | .local _ .vmem, ⟨0, _⟩ => ⟨S1x16x65544, .f32⟩
  | .local _ .vmem, ⟨1, _⟩ => ⟨S1x16x65544, .f32⟩
  | .local _ .vmem, ⟨2, _⟩ => ⟨S1x16x48, .f32⟩
  | .local _ .vmem, ⟨3, _⟩ => ⟨S1x16x48, .f32⟩
  | .local _ .vmem, ⟨4, _⟩ => ⟨S1x16x65536, .f32⟩
  | .local _ .vmem, ⟨5, _⟩ => ⟨S1x16x65536, .f32⟩
  | _, _ => ⟨S32x16x65544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x65544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  bcast_S768_S1x768_1 : S768.BroadcastsInDim S1x768 (![1] : Fin 1 → Fin S1x768.rank)
  bcast_S1x768_S32x768_0_1 : S1x768.BroadcastsInDim S32x768 (![0, 1] : Fin 2 → Fin S32x768.rank)
  shapeCasts_S32x768_S32x48x16 : S32x768.ShapeCasts S32x48x16
  transposes_S32x48x16_S32x16x48_0_2_1 : S32x48x16.Transposes [0, 2, 1] S32x16x48
  inb_S1x16x65544_S1x16x65544_0_0_0 : ∀ a, (![0, 0, 0] : Fin 3 → Nat) a + S1x16x65544.size a ≤ S1x16x65544.size a
  h_S1x16x65544 : 0 < S1x16x65544.numel
  shapeCasts_S1x16x65544_S16x65544 : S1x16x65544.ShapeCasts S16x65544
  bitsLt_bf16_f32 : FTy.bits .bf16 < FTy.bits .f32
  slices_S16x65544_o0_8_S16x65536 : S16x65544.Slices ![0, 8] S16x65536
  slices_S16x65544_o0_4_S16x65536 : S16x65544.Slices ![0, 4] S16x65536
  slices_S16x65544_o0_0_S16x65536 : S16x65544.Slices ![0, 0] S16x65536
  concatenates_S16x65536_S16x65536_S16x65536_S48x65536_d0 : Shape.Concatenates [S16x65536, S16x65536, S16x65536] S48x65536 0
  inb_S1x16x48_S1x16x48_0_0_0 : ∀ a, (![0, 0, 0] : Fin 3 → Nat) a + S1x16x48.size a ≤ S1x16x48.size a
  h_S1x16x48 : 0 < S1x16x48.numel
  shapeCasts_S1x16x48_S16x48 : S1x16x48.ShapeCasts S16x48
  inb_S1x16x65536_S1x16x65536_0_0_0 : ∀ a, (![0, 0, 0] : Fin 3 → Nat) a + S1x16x65536.size a ≤ S1x16x65536.size a
  h_S1x16x65536 : 0 < S1x16x65536.numel
  shapeCasts_S1x16x65536_S16x65536 : S1x16x65536.ShapeCasts S16x65536
  shapeCasts_S16x65536_S1x16x65536 : S16x65536.ShapeCasts S1x16x65536
  dot_S32x8_S8x16_S32x16_1_0_0_1_n_n_wf : DotDims.WF S32x8 S8x16 S32x16 [1] [0] [0] [1] [] []
  dot_S32x16_S16x768_S32x768_1_0_0_1_n_n_wf : DotDims.WF S32x16 S16x768 S32x768 [1] [0] [0] [1] [] []
  dot_S16x48_S48x65536_S16x65536_1_0_0_1_n_n_wf : DotDims.WF S16x48 S48x65536 S16x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x65544.size a ≤ S32x16x65544.size a
  hwx0_0 : ∀ i : grid0.Coords, EltTy.bits .f32 = 32 ∨ (Rect.block (s := S32x16x65544) S1x16x65544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x48.size a ≤ S32x16x48.size a
  hwx0_1 : ∀ i : grid0.Coords, EltTy.bits .f32 = 32 ∨ (Rect.block (s := S32x16x48) S1x16x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x65536.size a ≤ S32x16x65536.size a
  hwx0_2 : ∀ i : grid0.Coords, EltTy.bits .f32 = 32 ∨ (Rect.block (s := S32x16x65536) S1x16x65536.size (cc0_transform_2 i) (hinb0_2 i)).WholeWords (EltTy.packing .f32)

variable [Facts₀]

def dot_S32x8_S8x16_S32x16_1_0_0_1_n_n : DotDims S32x8 S8x16 S32x16 where
  lhsContracting := [1]
  rhsContracting := [0]
  lhsNonContracting := [0]
  rhsNonContracting := [1]
  lhsBatch := []
  rhsBatch := []
  wf := dot_S32x8_S8x16_S32x16_1_0_0_1_n_n_wf
def dot_S32x16_S16x768_S32x768_1_0_0_1_n_n : DotDims S32x16 S16x768 S32x768 where
  lhsContracting := [1]
  rhsContracting := [0]
  lhsNonContracting := [0]
  rhsNonContracting := [1]
  lhsBatch := []
  rhsBatch := []
  wf := dot_S32x16_S16x768_S32x768_1_0_0_1_n_n_wf
def dot_S16x48_S48x65536_S16x65536_1_0_0_1_n_n : DotDims S16x48 S48x65536 S16x65536 where
  lhsContracting := [1]
  rhsContracting := [0]
  lhsNonContracting := [0]
  rhsNonContracting := [1]
  lhsBatch := []
  rhsBatch := []
  wf := dot_S16x48_S48x65536_S16x65536_1_0_0_1_n_n_wf

abbrev win0_0 : Pipeline.Window sig grid0 :=
  Pipeline.Window.ofSpec (Memref.whole main_arg0) S1x16x65544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x16x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x16x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x16x65544 : Shape := ⟨3, ![32, 16, 65544]⟩
abbrev S32x8 : Shape := ⟨2, ![32, 8]⟩
abbrev S8x16 : Shape := ⟨2, ![8, 16]⟩
abbrev S16 : Shape := ⟨1, ![16]⟩
abbrev S16x768 : Shape := ⟨2, ![16, 768]⟩
abbrev S768 : Shape := ⟨1, ![768]⟩
abbrev S32x16 : Shape := ⟨2, ![32, 16]⟩
abbrev S1x16 : Shape := ⟨2, ![1, 16]⟩
abbrev S_ : Shape := ⟨0, ![]⟩
abbrev S32x768 : Shape := ⟨2, ![32, 768]⟩
abbrev S1x768 : Shape := ⟨2, ![1, 768]⟩
abbrev S32x48x16 : Shape := ⟨3, ![32, 48, 16]⟩
abbrev S32x16x65536 : Shape := ⟨3, ![32, 16, 65536]⟩
abbrev S32x48x65536 : Shape := ⟨3, ![32, 48, 65536]⟩

abbrev nBuf : Space → Nat
  | .hbm => 27
  | .vmem => 0
  | .smem => 0
  | _ => 0

abbrev bufTy : (tb : Table) → Fin (tcTables nBuf tb) → BufTy
  | .hbm, ⟨0, _⟩ => ⟨S32x16x65544, .f32⟩
  | .hbm, ⟨1, _⟩ => ⟨S32x8, .f32⟩
  | .hbm, ⟨2, _⟩ => ⟨S8x16, .f32⟩
  | .hbm, ⟨3, _⟩ => ⟨S16, .f32⟩
  | .hbm, ⟨4, _⟩ => ⟨S16x768, .f32⟩
  | .hbm, ⟨5, _⟩ => ⟨S768, .f32⟩
  | .hbm, ⟨6, _⟩ => ⟨S32x16, .f32⟩
  | .hbm, ⟨7, _⟩ => ⟨S1x16, .f32⟩
  | .hbm, ⟨8, _⟩ => ⟨S32x16, .f32⟩
  | .hbm, ⟨9, _⟩ => ⟨S32x16, .f32⟩
  | .hbm, ⟨10, _⟩ => ⟨S_, .f32⟩
  | .hbm, ⟨11, _⟩ => ⟨S32x16, .f32⟩
  | .hbm, ⟨12, _⟩ => ⟨S32x16, .i1⟩
  | .hbm, ⟨13, _⟩ => ⟨S_, .f32⟩
  | .hbm, ⟨14, _⟩ => ⟨S32x16, .f32⟩
  | .hbm, ⟨15, _⟩ => ⟨S32x16, .f32⟩
  | .hbm, ⟨16, _⟩ => ⟨S32x16, .f32⟩
  | .hbm, ⟨17, _⟩ => ⟨S32x768, .f32⟩
  | .hbm, ⟨18, _⟩ => ⟨S1x768, .f32⟩
  | .hbm, ⟨19, _⟩ => ⟨S32x768, .f32⟩
  | .hbm, ⟨20, _⟩ => ⟨S32x768, .f32⟩
  | .hbm, ⟨21, _⟩ => ⟨S32x48x16, .f32⟩
  | .hbm, ⟨22, _⟩ => ⟨S32x16x65536, .f32⟩
  | .hbm, ⟨23, _⟩ => ⟨S32x16x65536, .f32⟩
  | .hbm, ⟨24, _⟩ => ⟨S32x16x65536, .f32⟩
  | .hbm, ⟨25, _⟩ => ⟨S32x48x65536, .f32⟩
  | .hbm, ⟨26, _⟩ => ⟨S32x16x65536, .f32⟩
  | _, _ => ⟨S32x16x65544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  bcast_S768_S1x768_1 : S768.BroadcastsInDim S1x768 (![1] : Fin 1 → Fin S1x768.rank)
  bcast_S1x768_S32x768_0_1 : S1x768.BroadcastsInDim S32x768 (![0, 1] : Fin 2 → Fin S32x768.rank)
  shapeCasts_S32x768_S32x48x16 : S32x768.ShapeCasts S32x48x16
  slices_S32x16x65544_S32x16x65536_0_0_8 : S32x16x65544.Slices ![0, 0, 8] S32x16x65536
  slices_S32x16x65544_S32x16x65536_0_0_4 : S32x16x65544.Slices ![0, 0, 4] S32x16x65536
  slices_S32x16x65544_S32x16x65536_0_0_0 : S32x16x65544.Slices ![0, 0, 0] S32x16x65536
  concatenates_S32x16x65536_S32x16x65536_S32x16x65536_S32x48x65536_d1 : Shape.Concatenates [S32x16x65536, S32x16x65536, S32x16x65536] S32x48x65536 1
  dot_S32x8_S8x16_S32x16_1_0_0_1_n_n_wf : DotDims.WF S32x8 S8x16 S32x16 [1] [0] [0] [1] [] []
  dot_S32x16_S16x768_S32x768_1_0_0_1_n_n_wf : DotDims.WF S32x16 S16x768 S32x768 [1] [0] [0] [1] [] []
  dot_S32x48x16_S32x48x65536_S32x16x65536_1_1_2_2_0_0_wf : DotDims.WF S32x48x16 S32x48x65536 S32x16x65536 [1] [1] [2] [2] [0] [0]

variable [Facts₀]

def dot_S32x8_S8x16_S32x16_1_0_0_1_n_n : DotDims S32x8 S8x16 S32x16 where
  lhsContracting := [1]
  rhsContracting := [0]
  lhsNonContracting := [0]
  rhsNonContracting := [1]
  lhsBatch := []
  rhsBatch := []
  wf := dot_S32x8_S8x16_S32x16_1_0_0_1_n_n_wf
def dot_S32x16_S16x768_S32x768_1_0_0_1_n_n : DotDims S32x16 S16x768 S32x768 where
  lhsContracting := [1]
  rhsContracting := [0]
  lhsNonContracting := [0]
  rhsNonContracting := [1]
  lhsBatch := []
  rhsBatch := []
  wf := dot_S32x16_S16x768_S32x768_1_0_0_1_n_n_wf
def dot_S32x48x16_S32x48x65536_S32x16x65536_1_1_2_2_0_0 : DotDims S32x48x16 S32x48x65536 S32x16x65536 where
  lhsContracting := [1]
  rhsContracting := [1]
  lhsNonContracting := [2]
  rhsNonContracting := [2]
  lhsBatch := [0]
  rhsBatch := [0]
  wf := dot_S32x48x16_S32x48x65536_S32x16x65536_1_1_2_2_0_0_wf

class Facts : Prop extends Facts₀ where

variable [Facts]
-- ==== Proof.Spec.lean ====
/-
  A per-sample dilated causal convolution, as one function of its weights and its input.

  For a batch entry b, an output channel o and an output time t, the result is the sum over the 48 stacked
  tap rows c of w(b, c, o) * x(b, c mod 16, t + 8 - 4 * (c div 16)): the 48 rows are three groups of 16 input
  channels, group g = c div 16 read at the time offset 8 - 4 g (a kernel of three taps at dilation 4 over an input
  padded by 8 in front).  Both programs build exactly this stack — three unit-stride slices of the input at the
  offsets 8, 4 and 0 along the time axis, laid one after the other along the channel axis — and contract it against
  the weights; one of them does it for the whole batch at once, the other one batch entry at a time.

  This module states the function and reads such a stack of three slices at an index, for a matrix (one batch
  entry) and for the whole rank-3 array.  It mentions no program.
-/
import Idealize.ShloMosaic.PureOps.Ideal
import Idealize.ShloMosaic.Lib.ValueIdx
import Idealize.ShloMosaic.Lib.Pipeline.Value

noncomputable section

namespace HyperConv

open Idealize.ShloMosaic Idealize.ShloMosaic.ValueIdx

/-- The input channel that row `c` of the 48 stacked rows reads. -/
def tapCh (c : Fin 48) : Fin 16 := ⟨c.val % 16, Nat.mod_lt _ (by decide)⟩

/-- The input time that row `c` of the stack reads at output time `t`: group `c / 16` is shifted by `8 - 4 (c / 16)`. -/
def tapT (c : Fin 48) (t : Fin 65536) : Fin 65544 :=
  ⟨8 - 4 * (c.val / 16) + t.val, by have := c.isLt; have := t.isLt; omega⟩

/-- The convolution: at `(b, o, t)` the sum over the stacked rows of weight times input. -/
def conv (w : (⟨3, ![32, 48, 16]⟩ : Shape).Idx → EReal) (x : (⟨3, ![32, 16, 65544]⟩ : Shape).Idx → EReal) :
    (⟨3, ![32, 16, 65536]⟩ : Shape).Idx → EReal :=
  fun i => ∑ c : Fin 48, w (ix3 (i 0) c (i 1)) * x (ix3 (i 0) (tapCh c) (tapT c (i 2)))

variable {α : Type}

/-- The stack for ONE batch entry: the three time slices of a [16, 65544] matrix at offsets 8, 4, 0, laid along the
    rows, read at row `c` and time `t`, is the matrix at channel `c mod 16` and time `t + 8 - 4 (c div 16)`. -/
theorem stack2_apply (y : (⟨2, ![16, 65544]⟩ : Shape).Idx → α)
    (h8 : (⟨2, ![16, 65544]⟩ : Shape).Slices ![0, 8] ⟨2, ![16, 65536]⟩)
    (h4 : (⟨2, ![16, 65544]⟩ : Shape).Slices ![0, 4] ⟨2, ![16, 65536]⟩)
    (h0 : (⟨2, ![16, 65544]⟩ : Shape).Slices ![0, 0] ⟨2, ![16, 65536]⟩)
    (hc : Shape.Concatenates [(⟨2, ![16, 65536]⟩ : Shape), ⟨2, ![16, 65536]⟩, ⟨2, ![16, 65536]⟩] ⟨2, ![48, 65536]⟩ 0)
    (c : Fin 48) (t : Fin 65536) :
    concatenate (⟨2, ![48, 65536]⟩ : Shape) 0
      [⟨(⟨2, ![16, 65536]⟩ : Shape), extractStridedSlice ⟨2, ![16, 65536]⟩ ![0, 8] y h8⟩,
       ⟨(⟨2, ![16, 65536]⟩ : Shape), extractStridedSlice ⟨2, ![16, 65536]⟩ ![0, 4] y h4⟩,
       ⟨(⟨2, ![16, 65536]⟩ : Shape), extractStridedSlice ⟨2, ![16, 65536]⟩ ![0, 0] y h0⟩] hc (ix2 c t)
      = y (ix2 (tapCh c) (tapT c t)) := by
  have hcl := c.isLt
  have htl := t.isLt
  have piece := concatenate_apply_piece (α := α) (t := ⟨2, ![48, 65536]⟩) (0 : Fin 2)
      [⟨(⟨2, ![16, 65536]⟩ : Shape), extractStridedSlice ⟨2, ![16, 65536]⟩ ![0, 8] y h8⟩,
       ⟨(⟨2, ![16, 65536]⟩ : Shape), extractStridedSlice ⟨2, ![16, 65536]⟩ ![0, 4] y h4⟩,
       ⟨(⟨2, ![16, 65536]⟩ : Shape), extractStridedSlice ⟨2, ![16, 65536]⟩ ![0, 0] y h0⟩] hc (ix2 c t)
  by_cases g0 : c.val < 16
  · refine (piece 0 (by show 0 < 3; omega) _ _ rfl rfl 0 rfl
      (ix2 (⟨c.val, g0⟩ : Fin 16) t) (fun b hb => ?_) ?_).trans ?_
    · match b with
      | ⟨0, _⟩ => exact absurd rfl hb
      | ⟨1, _⟩ => rfl
    · show 0 + c.val = c.val; omega
    · refine extractStridedSlice_apply _ y h8 _ _ fun a => ?_
      match a with
      | ⟨0, _⟩ => show c.val % 16 = 0 + c.val; omega
      | ⟨1, _⟩ => show 8 - 4 * (c.val / 16) + t.val = 8 + t.val; omega
  · by_cases g1 : c.val < 32
    · refine (piece 1 (by show 1 < 3; omega) _ _ rfl rfl 16 rfl
        (ix2 (⟨c.val - 16, by omega⟩ : Fin 16) t) (fun b hb => ?_) ?_).trans ?_
      · match b with
        | ⟨0, _⟩ => exact absurd rfl hb
        | ⟨1, _⟩ => rfl
      · show 16 + (c.val - 16) = c.val; omega
      · refine extractStridedSlice_apply _ y h4 _ _ fun a => ?_
        match a with
        | ⟨0, _⟩ => show c.val % 16 = 0 + (c.val - 16); omega
        | ⟨1, _⟩ => show 8 - 4 * (c.val / 16) + t.val = 4 + t.val; omega
    · refine (piece 2 (by show 2 < 3; omega) _ _ rfl rfl 32 rfl
        (ix2 (⟨c.val - 32, by omega⟩ : Fin 16) t) (fun b hb => ?_) ?_).trans ?_
      · match b with
        | ⟨0, _⟩ => exact absurd rfl hb
        | ⟨1, _⟩ => rfl
      · show 32 + (c.val - 32) = c.val; omega
      · refine extractStridedSlice_apply _ y h0 _ _ fun a => ?_
        match a with
        | ⟨0, _⟩ => show c.val % 16 = 0 + (c.val - 32); omega
        | ⟨1, _⟩ => show 8 - 4 * (c.val / 16) + t.val = 0 + t.val; omega

/-- The stack for the WHOLE batch: the three time slices of the [32, 16, 65544] array at offsets 8, 4, 0, laid along
    the channel axis, read at `(b, c, t)`, is the array at `(b, c mod 16, t + 8 - 4 (c div 16))`. -/
theorem stack3_apply (x : (⟨3, ![32, 16, 65544]⟩ : Shape).Idx → α)
    (h8 : (⟨3, ![32, 16, 65544]⟩ : Shape).Slices ![0, 0, 8] ⟨3, ![32, 16, 65536]⟩)
    (h4 : (⟨3, ![32, 16, 65544]⟩ : Shape).Slices ![0, 0, 4] ⟨3, ![32, 16, 65536]⟩)
    (h0 : (⟨3, ![32, 16, 65544]⟩ : Shape).Slices ![0, 0, 0] ⟨3, ![32, 16, 65536]⟩)
    (hc : Shape.Concatenates [(⟨3, ![32, 16, 65536]⟩ : Shape), ⟨3, ![32, 16, 65536]⟩, ⟨3, ![32, 16, 65536]⟩]
      ⟨3, ![32, 48, 65536]⟩ 1)
    (b : Fin 32) (c : Fin 48) (t : Fin 65536) :
    concatenate (⟨3, ![32, 48, 65536]⟩ : Shape) 1
      [⟨(⟨3, ![32, 16, 65536]⟩ : Shape), extractStridedSlice ⟨3, ![32, 16, 65536]⟩ ![0, 0, 8] x h8⟩,
       ⟨(⟨3, ![32, 16, 65536]⟩ : Shape), extractStridedSlice ⟨3, ![32, 16, 65536]⟩ ![0, 0, 4] x h4⟩,
       ⟨(⟨3, ![32, 16, 65536]⟩ : Shape), extractStridedSlice ⟨3, ![32, 16, 65536]⟩ ![0, 0, 0] x h0⟩] hc (ix3 b c t)
      = x (ix3 b (tapCh c) (tapT c t)) := by
  have hcl := c.isLt
  have htl := t.isLt
  have piece := concatenate_apply_piece (α := α) (t := ⟨3, ![32, 48, 65536]⟩) (1 : Fin 3)
      [⟨(⟨3, ![32, 16, 65536]⟩ : Shape), extractStridedSlice ⟨3, ![32, 16, 65536]⟩ ![0, 0, 8] x h8⟩,
       ⟨(⟨3, ![32, 16, 65536]⟩ : Shape), extractStridedSlice ⟨3, ![32, 16, 65536]⟩ ![0, 0, 4] x h4⟩,
       ⟨(⟨3, ![32, 16, 65536]⟩ : Shape), extractStridedSlice ⟨3, ![32, 16, 65536]⟩ ![0, 0, 0] x h0⟩] hc (ix3 b c t)
  by_cases g0 : c.val < 16
  · refine (piece 0 (by show 0 < 3; omega) _ _ rfl rfl 0 rfl
      (ix3 b (⟨c.val, g0⟩ : Fin 16) t) (fun d hd => ?_) ?_).trans ?_
    · match d with
      | ⟨0, _⟩ => rfl
      | ⟨1, _⟩ => exact absurd rfl hd
      | ⟨2, _⟩ => rfl
    · show 0 + c.val = c.val; omega
    · refine extractStridedSlice_apply _ x h8 _ _ fun a => ?_
      match a with
      | ⟨0, _⟩ => show b.val = 0 + b.val; omega
      | ⟨1, _⟩ => show c.val % 16 = 0 + c.val; omega
      | ⟨2, _⟩ => show 8 - 4 * (c.val / 16) + t.val = 8 + t.val; omega
  · by_cases g1 : c.val < 32
    · refine (piece 1 (by show 1 < 3; omega) _ _ rfl rfl 16 rfl
        (ix3 b (⟨c.val - 16, by omega⟩ : Fin 16) t) (fun d hd => ?_) ?_).trans ?_
      · match d with
        | ⟨0, _⟩ => rfl
        | ⟨1, _⟩ => exact absurd rfl hd
        | ⟨2, _⟩ => rfl
      · show 16 + (c.val - 16) = c.val; omega
      · refine extractStridedSlice_apply _ x h4 _ _ fun a => ?_
        match a with
        | ⟨0, _⟩ => show b.val = 0 + b.val; omega
        | ⟨1, _⟩ => show c.val % 16 = 0 + (c.val - 16); omega
        | ⟨2, _⟩ => show 8 - 4 * (c.val / 16) + t.val = 4 + t.val; omega
    · refine (piece 2 (by show 2 < 3; omega) _ _ rfl rfl 32 rfl
        (ix3 b (⟨c.val - 32, by omega⟩ : Fin 16) t) (fun d hd => ?_) ?_).trans ?_
      · match d with
        | ⟨0, _⟩ => rfl
        | ⟨1, _⟩ => exact absurd rfl hd
        | ⟨2, _⟩ => rfl
      · show 32 + (c.val - 32) = c.val; omega
      · refine extractStridedSlice_apply _ x h0 _ _ fun a => ?_
        match a with
        | ⟨0, _⟩ => show b.val = 0 + b.val; omega
        | ⟨1, _⟩ => show c.val % 16 = 0 + (c.val - 32); omega
        | ⟨2, _⟩ => show 8 - 4 * (c.val / 16) + t.val = 0 + t.val; omega

end HyperConv

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KernelValue.lean ====
/-
  The kernel computes the convolution, one batch entry per grid point.

  At grid point t the body multiplies the [16, 48] block of the transposed weights by the [48, 65536] stack of the
  three shifted slices of the [16, 65544] input block, into a zero accumulator: at (o, s) the sum over the stacked
  rows c of wT(o, c) * x(c mod 16, s + 8 - 4 (c div 16)).  The transposed weights are the weight tensor with its last
  two axes swapped, so wT(o, c) = w(c, o), and every window's block index is the batch entry on axis 0 and zero on the
  others.  Hence what point t writes back is block t of the convolution of the weight tensor with the input, the 32
  blocks tile the result, and the array ends at the convolution.
-/
import proofs.«123975_j36833639531048_1_alg».proof.Proof.Gen.KernelIdeal.Value
import proofs.«123975_j36833639531048_1_alg».proof.Proof.Spec
import proofs.«123975_j36833639531048_1_alg».proof.Proof.LibPlainDot
import Idealize.ShloMosaic.PureOps.Ideal.Laws
import Idealize.ShloMosaic.Lib.ValueLayout
import Idealize.ShloMosaic.Lib.StableHlo.Run

set_option maxRecDepth 16384

noncomputable section

namespace Cert.KernelIdeal.ConvValue

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

/-! ## The weight tensor -/

/-- The weight tensor the host computes before the region, as a function of the five small arguments: the
    conditioning vector through a dense layer, a leaky rectifier, a second dense layer, recast to [32, 48, 16]. -/
def weights (x1 : FVec Ideal S32x8 .f32) (x2 : FVec Ideal S8x16 .f32) (x3 : FVec Ideal S16 .f32)
    (x4 : FVec Ideal S16x768 .f32) (x5 : FVec Ideal S768 .f32) : FVec Ideal S32x48x16 .f32 :=
  shapeCast _ (addf (Host.dotGeneral dot_S32x16_S16x768_S32x768_1_0_0_1_n_n none (select (cmpf .ogt (addf (Host.dotGeneral dot_S32x8_S8x16_S32x16_1_0_0_1_n_n none (x1) (x2)) (broadcastInDim S32x16 ![0, 1] bcast_S1x16_S32x16_0_1 (broadcastInDim S1x16 ![1] bcast_S16_S1x16_1 (x3)))) (broadcastInDim S32x16 ![] bcast_S_S32x16 (constant S_ .f32 0x00000000#32))) (addf (Host.dotGeneral dot_S32x8_S8x16_S32x16_1_0_0_1_n_n none (x1) (x2)) (broadcastInDim S32x16 ![0, 1] bcast_S1x16_S32x16_0_1 (broadcastInDim S1x16 ![1] bcast_S16_S1x16_1 (x3)))) (mulf (broadcastInDim S32x16 ![] bcast_S_S32x16 (constant S_ .f32 0x3E4CCCCD#32)) (addf (Host.dotGeneral dot_S32x8_S8x16_S32x16_1_0_0_1_n_n none (x1) (x2)) (broadcastInDim S32x16 ![0, 1] bcast_S1x16_S32x16_0_1 (broadcastInDim S1x16 ![1] bcast_S16_S1x16_1 (x3)))))) (x4)) (broadcastInDim S32x768 ![0, 1] bcast_S1x768_S32x768_0_1 (broadcastInDim S1x768 ![1] bcast_S768_S1x768_1 (x5)))) shapeCasts_S32x768_S32x48x16

variable (m : (ℓ : Loc nD τ sig) → Buf (Elt Ideal) ℓ) (ρ : Dev nD → PrngReg)

/-- The weight tensor of core `c`'s launch memory. -/
def W (c : Dev nD) : FVec Ideal S32x48x16 .f32 :=
  weights (m ((c : Thread nD τ).loc main_arg1)) (m ((c : Thread nD τ).loc main_arg2)) (m ((c : Thread nD τ).loc main_arg3))
    (m ((c : Thread nD τ).loc main_arg4)) (m ((c : Thread nD τ).loc main_arg5))

/-- The region finds, in the array its second window stages, the weight tensor with its last two axes swapped. -/
theorem V_main_v14 (c : Dev nD) :
    (V m c main_v14 : S32x16x48.Idx → EReal) = transpose S32x16x48 [0, 2, 1] (W m c) transposes_S32x48x16_S32x16x48_0_2_1 := by
  dsimp only [V]
  simp only [hostOps0, hostOps0_1, hostOps0_2, List.flatten_cons, List.flatten_nil, List.append_nil, List.cons_append,
    List.nil_append]
  after_results
  rfl

/-! ## The body's product at an index -/

theorem hz3 : (![0, 0, 0] : Fin 3 → Nat) = fun _ => 0 := funext fun a => by fin_cases a <;> rfl

/-- What the body stores, at `(0, o, s)`: the sum over the stacked rows `c` of the weight block at `(0, o, c)` times the
    input block at `(0, c mod 16, s + 8 - 4 (c div 16))`.  The product into a zero accumulator is the plain sum over the
    48 rows; its left factor is the weight block with the unit axis dropped, its right factor the stack of the three
    shifted slices of the input block with the unit axis dropped. -/
theorem pay_apply (v0 : Vec Ideal S1x16x65544 .f32) (v7 : Vec Ideal S1x16x48 .f32) (j : S1x16x65536.Idx) :
    k0_pay1 (F := Ideal) v0 v7 j
      = ∑ c : Fin 48, (v7 (ix3 (0 : Fin 1) (j 1) c) : EReal) * (v0 (ix3 (0 : Fin 1) (HyperConv.tapCh c) (HyperConv.tapT c (j 2))) : EReal) := by
  obtain ⟨u, o, s, rfl⟩ : ∃ (u : Fin 1) (o : Fin 16) (s : Fin 65536), j = ix3 u o s := ⟨j 0, j 1, j 2, eq_ix3 j⟩
  show _ = ∑ c : Fin 48, (v7 (ix3 (0 : Fin 1) o c) : EReal) * (v0 (ix3 (0 : Fin 1) (HyperConv.tapCh c) (HyperConv.tapT c s)) : EReal)
  unfold k0_pay1
  refine (shapeCast_ab_1ab_apply _ shapeCasts_S16x65536_S1x16x65536 u o s).trans ?_
  refine (Ideal.matmul_constant_zero_apply dot_S16x48_S48x65536_S16x65536_1_0_0_1_n_n none _ _ (ix2 o s)).trans ?_
  refine (PlainDot.sum_eq dot_S16x48_S48x65536_S16x65536_1_0_0_1_n_n rfl rfl rfl rfl rfl rfl _ _ o s).trans ?_
  refine Finset.sum_congr rfl fun c _ => ?_
  refine congrArg₂ (fun a b : EReal => a * b) ?_ ?_
  · exact shapeCast_1ab_ab_apply v7 shapeCasts_S1x16x48_S16x48 o c
  · refine (HyperConv.stack2_apply _ slices_S16x65544_o0_8_S16x65536 slices_S16x65544_o0_4_S16x65536
      slices_S16x65544_o0_0_S16x65536 concatenates_S16x65536_S16x65536_S16x65536_S48x65536_d0 c s).trans ?_
    exact shapeCast_1ab_ab_apply v0 shapeCasts_S1x16x65544_S16x65544 _ _

/-! ## The windows' block indices -/

/-- Decided over the 32 grid points: every window's block index is the output's on the batch axis and zero on the
    other two, and the output's batch index is below 32. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) < 32 :=
  (by decide +kernel : ∀ t : Fin grid0.N, _)

/-- Every batch entry is some grid point's. -/
theorem idx_onto : ∀ q : Fin 32, ∃ t : Fin cfg0.N, win0_2.index t (0 : Fin 3) = q.val :=
  (by decide +kernel : ∀ q : Fin 32, ∃ t : Fin grid0.N, win0_2.index t (0 : Fin 3) = q.val)

/-! ## What a point writes back -/

/-- Point `t` writes back block `t` of the convolution of the weight tensor with the input. -/
theorem flushed_eq (c : Dev nD) (t : Fin cfg0.N) :
    (dats m 0 c).flushed 2 t
      = ((cfg0.win 2).blk t).view.read (Elt Ideal) (HyperConv.conv (W m c) (m ((c : Thread nD τ).loc main_arg0))) := by
  rw [flushed2]
  unfold out0_2
  rw [View.canon_unit_zero hz3]
  simp only [View.ld_unit_zero (S := S1x16x65544) hz3, View.ld_unit_zero (S := S1x16x48) hz3]
  obtain ⟨e00, e01, e02, e10, e11, e12, e21, e22, e2lt⟩ := idx_facts t
  funext j
  show k0_pay1 (iblk m c 0 t) (iblk m c 1 t) j
    = HyperConv.conv (W m c) (m ((c : Thread nD τ).loc main_arg0)) (((cfg0.win 2).blk t).view.emb j)
  refine (pay_apply (iblk m c 0 t) (iblk m c 1 t) j).trans ?_
  unfold HyperConv.conv
  refine Finset.sum_congr rfl fun k _ => ?_
  have hj0 : (j 0).val < 1 := (j 0).isLt
  have hj1 : (j 1).val < 16 := (j 1).isLt
  have hj2 : (j 2).val < 65536 := (j 2).isLt
  refine congrArg₂ (fun a b : EReal => a * b) ?_ ?_
  · show (V m c main_v14 : S32x16x48.Idx → EReal) (((cfg0.win 1).blk t).view.emb (ix3 (0 : Fin 1) (j 1) k)) = _
    rw [V_main_v14]
    refine transpose_apply _ _ _ _ _ fun b => ?_
    match b with
    | ⟨0, _⟩ =>
      show win0_2.index t (0 : Fin 3) * 1 + 1 * (j 0).val = win0_1.index t (0 : Fin 3) * 1 + 1 * 0
      omega
    | ⟨1, _⟩ =>
      show win0_2.index t (1 : Fin 3) * 16 + 1 * (j 1).val = win0_1.index t (1 : Fin 3) * 16 + 1 * (j 1).val
      omega
    | ⟨2, _⟩ =>
      show k.val = win0_1.index t (2 : Fin 3) * 48 + 1 * k.val
      omega
  · show V m c main_arg0 (((cfg0.win 0).blk t).view.emb (ix3 (0 : Fin 1) (HyperConv.tapCh k) (HyperConv.tapT k (j 2)))) = _
    rw [V_main_arg0]
    refine congrArg (m ((c : Thread nD τ).loc main_arg0)) (funext fun a => Fin.ext ?_)
    match a with
    | ⟨0, _⟩ =>
      show win0_0.index t (0 : Fin 3) * 1 + 1 * 0 = win0_2.index t (0 : Fin 3) * 1 + 1 * (j 0).val
      omega
    | ⟨1, _⟩ =>
      show win0_0.index t (1 : Fin 3) * 16 + 1 * (HyperConv.tapCh k).val = (HyperConv.tapCh k).val
      omega
    | ⟨2, _⟩ =>
      show win0_0.index t (2 : Fin 3) * 65544 + 1 * (HyperConv.tapT k (j 2)).val
        = (HyperConv.tapT k (⟨win0_2.index t (2 : Fin 3) * 65536 + 1 * (j 2).val, by omega⟩ : Fin 65536)).val
      show win0_0.index t (2 : Fin 3) * 65544 + 1 * (8 - 4 * (k.val / 16) + (j 2).val)
        = 8 - 4 * (k.val / 16) + (win0_2.index t (2 : Fin 3) * 65536 + 1 * (j 2).val)
      omega

/-! ## The blocks tile the result -/

/-- An index of the result is in point `t`'s block iff each coordinate is in the block's range on its axis. -/
theorem mem_blk (t : Fin cfg0.N) (i : S32x16x65536.Idx) :
    i ∈ ((cfg0.win 2).blk t).view.set ↔ ∀ a : Fin 3, win0_2.index t a * S1x16x65536.size a ≤ (i a).val
      ∧ (i a).val < win0_2.index t a * S1x16x65536.size a + S1x16x65536.size a := by
  show i ∈ ((View.whole main_v15).slice (win0_2.rect t)).set ↔ _
  rw [View.set_slice_whole, Rect.mem_set_unit]
  exact Iff.rfl

/-- Every index of the result lies in the block of the point whose batch entry is its first coordinate. -/
theorem cover (i : S32x16x65536.Idx) :
    ∃ t : Fin cfg0.N, (cfg0.win 2).flush t = true ∧ i ∈ ((cfg0.win 2).blk t).view.set := by
  have hi0 : (i 0).val < 32 := (i 0).isLt
  have hi1 : (i 1).val < 16 := (i 1).isLt
  have hi2 : (i 2).val < 65536 := (i 2).isLt
  obtain ⟨t, ht⟩ := idx_onto ⟨(i 0).val, hi0⟩
  have q0 : win0_2.index t (0 : Fin 3) = (i 0).val := ht
  obtain ⟨-, -, -, -, -, -, e21, e22, -⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 16 ≤ (i 1).val ∧ (i 1).val < win0_2.index t (1 : Fin 3) * 16 + 16
    omega
  | ⟨2, _⟩ =>
    show win0_2.index t (2 : Fin 3) * 65536 ≤ (i 2).val ∧ (i 2).val < win0_2.index t (2 : Fin 3) * 65536 + 65536
    omega

/-! ## The array after the run -/

/-- The result array ends at the convolution of the weight tensor with the input. -/
theorem final (c : Dev nD) :
    (dats m 0 c).arrAt 2 cfg0.N = HyperConv.conv (W m c) (m ((c : Thread nD τ).loc main_arg0)) :=
  (dats m 0 c).arrAt_eq_of_cover 2 _ (fun t _ => flushed_eq m c t) cover

/-- The kernel's run with its result named: the convolution; the arguments unchanged. -/
theorem run : θ_run defs (onTc (τ := τ) (main (F := Ideal))) ⟨m, fun _ => 0, ρ⟩ fun r => ∀ c : Dev nD,
      r.2.mem ((c : Thread nD τ).loc main_v15) = HyperConv.conv (W m c) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.ConvValue

end
-- ==== Proof.RefValue.lean ====
/-
  The reference computes the convolution.

  Its last operation contracts the weight tensor w[b, c, o] with the stack of the three shifted input slices
  s[b, c, t] over the row axis c, batch entry by batch entry: at (b, o, t) the sum over c of w(b, c, o) * s(b, c, t),
  and s(b, c, t) is the input at (b, c mod 16, t + 8 - 4 (c div 16)).  The weight tensor is left as the stage that
  computes it (the small network applied to the conditioning vector): nothing here looks inside it.
-/
import proofs.«123975_j36833639531048_1_alg».proof.Proof.Gen.ReferenceIdeal.Read
import proofs.«123975_j36833639531048_1_alg».proof.Proof.Spec

noncomputable section

namespace Cert.ReferenceIdeal.RefValue

open Cert.ReferenceIdeal Cert.ReferenceIdeal.Read Idealize.ShloMosaic Idealize.ShloMosaic.ValueIdx

/-- The reference's result, as a function of its arguments, is the convolution of its weight stage with its input. -/
theorem result_eq (x0 : (⟨S32x16x65544, .f32⟩ : BufTy).Contents (Elt Ideal)) (x1 : (⟨S32x8, .f32⟩ : BufTy).Contents (Elt Ideal))
    (x2 : (⟨S8x16, .f32⟩ : BufTy).Contents (Elt Ideal)) (x3 : (⟨S16, .f32⟩ : BufTy).Contents (Elt Ideal))
    (x4 : (⟨S16x768, .f32⟩ : BufTy).Contents (Elt Ideal)) (x5 : (⟨S768, .f32⟩ : BufTy).Contents (Elt Ideal)) :
    val_main_v18 (F := Ideal) x0 x1 x2 x3 x4 x5 = HyperConv.conv (val_main_v13 (F := Ideal) x1 x2 x3 x4 x5) x0 := by
  funext i
  rw [val_main_v18_apply]
  unfold HyperConv.conv
  refine Finset.sum_congr rfl fun k _ => ?_
  have el : lidx_main_v18 i k = ix3 (i 0) k (i 1) :=
    funext fun a => Fin.ext (by match a with | ⟨0, _⟩ => rfl | ⟨1, _⟩ => rfl | ⟨2, _⟩ => rfl)
  have er : ridx_main_v18 i k = ix3 (i 0) k (i 2) :=
    funext fun a => Fin.ext (by match a with | ⟨0, _⟩ => rfl | ⟨1, _⟩ => rfl | ⟨2, _⟩ => rfl)
  rw [el, er]
  refine congrArg (fun z : EReal => val_main_v13 (F := Ideal) x1 x2 x3 x4 x5 (ix3 (i 0) k (i 1)) * z) ?_
  unfold val_main_v17 val_main_v14 val_main_v15 val_main_v16
  exact HyperConv.stack3_apply x0 _ _ _ _ (i 0) k (i 2)

end Cert.ReferenceIdeal.RefValue

end
-- ==== Proof.lean ====
/-
  A per-sample dilated causal convolution with weights produced by a small network: the kernel against its reference.

  Both programs first compute, on the host and by the same operations, a weight tensor w of shape [32, 48, 16] from
  the conditioning vector (a dense layer, a leaky rectifier of slope 0.2, a second dense layer, a recast).  They then
  compute y(b, o, t) = sum over the 48 stacked rows c of w(b, c, o) * x(b, c mod 16, t + 8 - 4 (c div 16)), where the
  48 rows are the 16 input channels at the three taps (time offsets 8, 4, 0).

  The reference builds the stack for the whole batch (three slices of x along the time axis, laid along the channel
  axis) and contracts it with w over the row axis, batch entry by batch entry.  The kernel transposes the last two
  axes of w on the host and, at grid point b, multiplies the [16, 48] block of the transposed weights by the stack
  built from the [16, 65544] block of x, into a zero accumulator.  At the ideal instance a change of float format is
  the identity and a matrix product into zero is the plain sum, so both are the same sum term by term, with the same
  left and right factors: no law of arithmetic is used beyond that, and finiteness of the inputs is never needed.

  The three frames are the generated runs; the idealization rewrote nothing, so it is preserved trivially.
-/
import proofs.«123975_j36833639531048_1_alg».proof.Defs
import proofs.«123975_j36833639531048_1_alg».proof.Proof.Gen.Kernel
import proofs.«123975_j36833639531048_1_alg».proof.Proof.Gen.Kernel.Skeleton
import proofs.«123975_j36833639531048_1_alg».proof.Proof.Gen.Kernel.Launch
import proofs.«123975_j36833639531048_1_alg».proof.Proof.Gen.Kernel.Points
import proofs.«123975_j36833639531048_1_alg».proof.Proof.Gen.Kernel.Frame
import proofs.«123975_j36833639531048_1_alg».proof.Proof.Gen.KernelIdeal
import proofs.«123975_j36833639531048_1_alg».proof.Proof.Gen.KernelIdeal.Skeleton
import proofs.«123975_j36833639531048_1_alg».proof.Proof.Gen.KernelIdeal.Launch
import proofs.«123975_j36833639531048_1_alg».proof.Proof.Gen.KernelIdeal.Points
import proofs.«123975_j36833639531048_1_alg».proof.Proof.Gen.KernelIdeal.Frame
import proofs.«123975_j36833639531048_1_alg».proof.Proof.Gen.ReferenceIdeal
import proofs.«123975_j36833639531048_1_alg».proof.Proof.Gen.Pre_finite_inputs
import proofs.«123975_j36833639531048_1_alg».proof.Proof.Gen.KernelIdeal.Value
import proofs.«123975_j36833639531048_1_alg».proof.Proof.Gen.ReferenceIdeal.Run
import proofs.«123975_j36833639531048_1_alg».proof.Proof.Gen.ReferenceIdeal.Read
import proofs.«123975_j36833639531048_1_alg».proof.Proof.KernelValue
import proofs.«123975_j36833639531048_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs compute their weight tensors by the same operations of the same arguments. -/
theorem weights_eq (x1 : FVec Ideal Cert.KernelIdeal.S32x8 .f32) (x2 : FVec Ideal Cert.KernelIdeal.S8x16 .f32)
    (x3 : FVec Ideal Cert.KernelIdeal.S16 .f32) (x4 : FVec Ideal Cert.KernelIdeal.S16x768 .f32)
    (x5 : FVec Ideal Cert.KernelIdeal.S768 .f32) :
    Cert.ReferenceIdeal.Read.val_main_v13 (F := Ideal) x1 x2 x3 x4 x5 = Cert.KernelIdeal.ConvValue.weights x1 x2 x3 x4 x5 := rfl

/-- From memories that agree on the arguments both programs end with the convolution of the common weight tensor with
    the common input. -/
theorem algebraic : Cert.algebraic_KernelIdeal_ReferenceIdeal := by
  intro m ρ m' ρ' _ hagree
  refine ⟨fun c => HyperConv.conv (Cert.KernelIdeal.ConvValue.W m c)
      (m ((c.tc : Thread Cert.KernelIdeal.nD Cert.KernelIdeal.τ).loc Cert.KernelIdeal.main_arg0)),
    Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  refine (Cert.ReferenceIdeal.Read.val_main_v18_eq _ _ _ _ _ _).trans ?_
  refine (Cert.ReferenceIdeal.RefValue.result_eq _ _ _ _ _ _).trans ?_
  exact congrArg (fun w => HyperConv.conv w _) (weights_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
